-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x512x128 : Shape := ⟨4, ![8, 64, 512, 128]⟩
abbrev S19x4 : Shape := ⟨2, ![19, 4]⟩
abbrev S8x128 : Shape := ⟨2, ![8, 128]⟩
abbrev S_ : Shape := ⟨0, ![]⟩

class Facts : Prop where
  bcast_S_S8x64x512x128 : S_.BroadcastsInDim S8x64x512x128 (![] : Fin 0 → Fin S8x64x512x128.rank)
  reducesTo_S8x64x512x128_S_d0_1_2_3 : S8x64x512x128.ReducesTo [0, 1, 2, 3] S_
  h_S_ : 0 < S_.numel
  bcast_S_S19x4 : S_.BroadcastsInDim S19x4 (![] : Fin 0 → Fin S19x4.rank)
  reducesTo_S19x4_S_d0_1 : S19x4.ReducesTo [0, 1] S_

variable [Facts]

def fn {F : FTy → Type} [FloatOps F] (main_arg0 : FVec F S8x64x512x128 .f32) (main_arg1 : FVec F S19x4 .f32) (main_arg2 : IVec S8x128 32) : IVec S_ 1 :=
  let main_v0 : FVec F S8x64x512x128 .f32 := Host.absf main_arg0
  let main_cst : FVec F S_ .f32 := constant S_ .f32 0x7F800000#32
  let main_v1 : FVec F S8x64x512x128 .f32 := broadcastInDim S8x64x512x128 ![] bcast_S_S8x64x512x128 main_cst
  let main_v2 : IVec S8x64x512x128 1 := cmpf .olt main_v0 main_v1
  let main_c : IVec S_ 1 := constantI S_ 1 1#1
  let main_v3 : IVec S_ 1 := (fun x v => Host.reduce IntOp.andi x v reducesTo_S8x64x512x128_S_d0_1_2_3 h_S_) main_v2 main_c
  let main_v4 : FVec F S19x4 .f32 := Host.absf main_arg1
  let main_cst_0 : FVec F S_ .f32 := constant S_ .f32 0x7F800000#32
  let main_v5 : FVec F S19x4 .f32 := broadcastInDim S19x4 ![] bcast_S_S19x4 main_cst_0
  let main_v6 : IVec S19x4 1 := cmpf .olt main_v4 main_v5
  let main_c_1 : IVec S_ 1 := constantI S_ 1 1#1
  let main_v7 : IVec S_ 1 := (fun x v => Host.reduce IntOp.andi x v reducesTo_S19x4_S_d0_1 h_S_) main_v6 main_c_1
  let main_v8 : IVec S_ 1 := andi main_v3 main_v7
  main_v8
-- ==== Kernel.lean ====
abbrev S8x64x512x128 : Shape := ⟨4, ![8, 64, 512, 128]⟩
abbrev S19x4 : Shape := ⟨2, ![19, 4]⟩
abbrev S8x128 : Shape := ⟨2, ![8, 128]⟩
abbrev S_ : Shape := ⟨0, ![]⟩
abbrev S8x128x1 : Shape := ⟨3, ![8, 128, 1]⟩
abbrev S8x128x4 : Shape := ⟨3, ![8, 128, 4]⟩
abbrev S8x1x1x128 : Shape := ⟨4, ![8, 1, 1, 128]⟩
abbrev S1x8x512x128 : Shape := ⟨4, ![1, 8, 512, 128]⟩
abbrev S1x1x1x128 : Shape := ⟨4, ![1, 1, 1, 128]⟩

abbrev nBuf : Space → Nat
  | .hbm => 25
  | .vmem => 12
  | .smem => 0
  | _ => 0

abbrev bufTy : (tb : Table) → Fin (tcTables nBuf tb) → BufTy
  | .hbm, ⟨0, _⟩ => ⟨S8x64x512x128, .f32⟩
  | .hbm, ⟨1, _⟩ => ⟨S19x4, .f32⟩
  | .hbm, ⟨2, _⟩ => ⟨S8x128, .i32⟩
  | .hbm, ⟨3, _⟩ => ⟨S_, .i32⟩
  | .hbm, ⟨4, _⟩ => ⟨S8x128, .i32⟩
  | .hbm, ⟨5, _⟩ => ⟨S8x128, .i1⟩
  | .hbm, ⟨6, _⟩ => ⟨S_, .i32⟩
  | .hbm, ⟨7, _⟩ => ⟨S8x128, .i32⟩
  | .hbm, ⟨8, _⟩ => ⟨S8x128, .i32⟩
  | .hbm, ⟨9, _⟩ => ⟨S8x128, .i32⟩
  | .hbm, ⟨10, _⟩ => ⟨S8x128x1, .i32⟩
  | .hbm, ⟨11, _⟩ => ⟨S8x128x4, .f32⟩
  | .hbm, ⟨12, _⟩ => ⟨S8x128x1, .f32⟩
  | .hbm, ⟨13, _⟩ => ⟨S8x128, .f32⟩
  | .hbm, ⟨14, _⟩ => ⟨S8x1x1x128, .f32⟩
  | .hbm, ⟨15, _⟩ => ⟨S8x128x1, .f32⟩
  | .hbm, ⟨16, _⟩ => ⟨S8x128, .f32⟩
  | .hbm, ⟨17, _⟩ => ⟨S8x1x1x128, .f32⟩
  | .hbm, ⟨18, _⟩ => ⟨S8x128x1, .f32⟩
  | .hbm, ⟨19, _⟩ => ⟨S8x128, .f32⟩
  | .hbm, ⟨20, _⟩ => ⟨S8x1x1x128, .f32⟩
  | .hbm, ⟨21, _⟩ => ⟨S8x128x1, .f32⟩
  | .hbm, ⟨22, _⟩ => ⟨S8x128, .f32⟩
  | .hbm, ⟨23, _⟩ => ⟨S8x1x1x128, .f32⟩
  | .hbm, ⟨24, _⟩ => ⟨S8x64x512x128, .f32⟩
  | .local _ .vmem, ⟨0, _⟩ => ⟨S1x8x512x128, .f32⟩
  | .local _ .vmem, ⟨1, _⟩ => ⟨S1x8x512x128, .f32⟩
  | .local _ .vmem, ⟨2, _⟩ => ⟨S1x1x1x128, .f32⟩
  | .local _ .vmem, ⟨3, _⟩ => ⟨S1x1x1x128, .f32⟩
  | .local _ .vmem, ⟨4, _⟩ => ⟨S1x1x1x128, .f32⟩
  | .local _ .vmem, ⟨5, _⟩ => ⟨S1x1x1x128, .f32⟩
  | .local _ .vmem, ⟨6, _⟩ => ⟨S1x1x1x128, .f32⟩
  | .local _ .vmem, ⟨7, _⟩ => ⟨S1x1x1x128, .f32⟩
  | .local _ .vmem, ⟨8, _⟩ => ⟨S1x1x1x128, .f32⟩
  | .local _ .vmem, ⟨9, _⟩ => ⟨S1x1x1x128, .f32⟩
  | .local _ .vmem, ⟨10, _⟩ => ⟨S1x8x512x128, .f32⟩
  | .local _ .vmem, ⟨11, _⟩ => ⟨S1x8x512x128, .f32⟩
  | _, _ => ⟨S8x64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  slices_S8x128x4_S8x128x1_0_0_0 : S8x128x4.Slices ![0, 0, 0] S8x128x1
  shapeCasts_S8x128x1_S8x128 : S8x128x1.ShapeCasts S8x128
  shapeCasts_S8x128_S8x1x1x128 : S8x128.ShapeCasts S8x1x1x128
  slices_S8x128x4_S8x128x1_0_0_1 : S8x128x4.Slices ![0, 0, 1] S8x128x1
  slices_S8x128x4_S8x128x1_0_0_2 : S8x128x4.Slices ![0, 0, 2] S8x128x1
  slices_S8x128x4_S8x128x1_0_0_3 : S8x128x4.Slices ![0, 0, 3] S8x128x1
  inb_S1x8x512x128_S1x8x512x128_0_0_0_0 : ∀ a, (![0, 0, 0, 0] : Fin 4 → Nat) a + S1x8x512x128.size a ≤ S1x8x512x128.size a
  h_S1x8x512x128 : 0 < S1x8x512x128.numel
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S1x1x1x128 : S1x1x1x128.ShapeCasts S1x1x1x128
  broadcasts_S1x1x1x128_S1x8x512x128 : S1x1x1x128.Broadcasts S1x8x512x128
  gather_S19x4_S8x128x1_S8x128x4_2_0_n_n_0_2_14_wf : GatherDims.WF S19x4 S8x128x1 S8x128x4 [2] [0] [] [0] [] 2 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512x128.size a ≤ S8x64x512x128.size a
  hwx0_0 : ∀ i : grid0.Coords, EltTy.bits .f32 = 32 ∨ (Rect.block (s := S8x64x512x128) S1x8x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x128.size a ≤ S8x1x1x128.size a
  hwx0_1 : ∀ i : grid0.Coords, EltTy.bits .f32 = 32 ∨ (Rect.block (s := S8x1x1x128) S1x1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x128.size a ≤ S8x1x1x128.size a
  hwx0_2 : ∀ i : grid0.Coords, EltTy.bits .f32 = 32 ∨ (Rect.block (s := S8x1x1x128) S1x1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x128.size a ≤ S8x1x1x128.size a
  hwx0_3 : ∀ i : grid0.Coords, EltTy.bits .f32 = 32 ∨ (Rect.block (s := S8x1x1x128) S1x1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x128.size a ≤ S8x1x1x128.size a
  hwx0_4 : ∀ i : grid0.Coords, EltTy.bits .f32 = 32 ∨ (Rect.block (s := S8x1x1x128) S1x1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x512x128.size a ≤ S8x64x512x128.size a
  hwx0_5 : ∀ i : grid0.Coords, EltTy.bits .f32 = 32 ∨ (Rect.block (s := S8x64x512x128) S1x8x512x128.size (cc0_transform_5 i) (hinb0_5 i)).WholeWords (EltTy.packing .f32)

variable [Facts₀]

def gather_S19x4_S8x128x1_S8x128x4_2_0_n_n_0_2_14 : GatherDims S19x4 S8x128x1 S8x128x4 where
  offsetDims := [2]
  collapsedSliceDims := [0]
  operandBatchingDims := []
  startIndicesBatchingDims := []
  startIndexMap := [0]
  indexVectorDim := 2
  sliceSizes := ![1, 4]
  wf := gather_S19x4_S8x128x1_S8x128x4_2_0_n_n_0_2_14_wf

abbrev win0_0 : Pipeline.Window sig grid0 :=
  Pipeline.Window.ofSpec (Memref.whole main_arg0) S1x8x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x8x512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x64x512x128 : Shape := ⟨4, ![8, 64, 512, 128]⟩
abbrev S19x4 : Shape := ⟨2, ![19, 4]⟩
abbrev S8x128 : Shape := ⟨2, ![8, 128]⟩
abbrev S_ : Shape := ⟨0, ![]⟩
abbrev S8x128x1 : Shape := ⟨3, ![8, 128, 1]⟩
abbrev S8x128x4 : Shape := ⟨3, ![8, 128, 4]⟩
abbrev S8x1x1x128 : Shape := ⟨4, ![8, 1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8x64x512x128, .f32⟩
  | .hbm, ⟨1, _⟩ => ⟨S19x4, .f32⟩
  | .hbm, ⟨2, _⟩ => ⟨S8x128, .i32⟩
  | .hbm, ⟨3, _⟩ => ⟨S_, .i32⟩
  | .hbm, ⟨4, _⟩ => ⟨S8x128, .i32⟩
  | .hbm, ⟨5, _⟩ => ⟨S8x128, .i1⟩
  | .hbm, ⟨6, _⟩ => ⟨S_, .i32⟩
  | .hbm, ⟨7, _⟩ => ⟨S8x128, .i32⟩
  | .hbm, ⟨8, _⟩ => ⟨S8x128, .i32⟩
  | .hbm, ⟨9, _⟩ => ⟨S8x128, .i32⟩
  | .hbm, ⟨10, _⟩ => ⟨S8x128x1, .i32⟩
  | .hbm, ⟨11, _⟩ => ⟨S8x128x4, .f32⟩
  | .hbm, ⟨12, _⟩ => ⟨S8x128x1, .f32⟩
  | .hbm, ⟨13, _⟩ => ⟨S8x128, .f32⟩
  | .hbm, ⟨14, _⟩ => ⟨S8x1x1x128, .f32⟩
  | .hbm, ⟨15, _⟩ => ⟨S8x128x1, .f32⟩
  | .hbm, ⟨16, _⟩ => ⟨S8x128, .f32⟩
  | .hbm, ⟨17, _⟩ => ⟨S8x1x1x128, .f32⟩
  | .hbm, ⟨18, _⟩ => ⟨S8x128x1, .f32⟩
  | .hbm, ⟨19, _⟩ => ⟨S8x128, .f32⟩
  | .hbm, ⟨20, _⟩ => ⟨S8x1x1x128, .f32⟩
  | .hbm, ⟨21, _⟩ => ⟨S8x128x1, .f32⟩
  | .hbm, ⟨22, _⟩ => ⟨S8x128, .f32⟩
  | .hbm, ⟨23, _⟩ => ⟨S8x1x1x128, .f32⟩
  | .hbm, ⟨24, _⟩ => ⟨S8x64x512x128, .f32⟩
  | .hbm, ⟨25, _⟩ => ⟨S8x64x512x128, .f32⟩
  | .hbm, ⟨26, _⟩ => ⟨S8x64x512x128, .f32⟩
  | .hbm, ⟨27, _⟩ => ⟨S8x64x512x128, .f32⟩
  | .hbm, ⟨28, _⟩ => ⟨S8x64x512x128, .f32⟩
  | .hbm, ⟨29, _⟩ => ⟨S8x64x512x128, .f32⟩
  | .hbm, ⟨30, _⟩ => ⟨S8x64x512x128, .f32⟩
  | .hbm, ⟨31, _⟩ => ⟨S8x64x512x128, .f32⟩
  | .hbm, ⟨32, _⟩ => ⟨S8x64x512x128, .f32⟩
  | .hbm, ⟨33, _⟩ => ⟨S8x64x512x128, .f32⟩
  | _, _ => ⟨S8x64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]

class Facts₀ : Prop where
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  slices_S8x128x4_S8x128x1_0_0_0 : S8x128x4.Slices ![0, 0, 0] S8x128x1
  shapeCasts_S8x128x1_S8x128 : S8x128x1.ShapeCasts S8x128
  bcast_S8x128_S8x1x1x128_0_3 : S8x128.BroadcastsInDim S8x1x1x128 (![0, 3] : Fin 2 → Fin S8x1x1x128.rank)
  slices_S8x128x4_S8x128x1_0_0_1 : S8x128x4.Slices ![0, 0, 1] S8x128x1
  slices_S8x128x4_S8x128x1_0_0_2 : S8x128x4.Slices ![0, 0, 2] S8x128x1
  slices_S8x128x4_S8x128x1_0_0_3 : S8x128x4.Slices ![0, 0, 3] S8x128x1
  bcast_S8x1x1x128_S8x64x512x128_0_1_2_3 : S8x1x1x128.BroadcastsInDim S8x64x512x128 (![0, 1, 2, 3] : Fin 4 → Fin S8x64x512x128.rank)
  gather_S19x4_S8x128x1_S8x128x4_2_0_n_n_0_2_14_wf : GatherDims.WF S19x4 S8x128x1 S8x128x4 [2] [0] [] [0] [] 2 ![1, 4]

variable [Facts₀]

def gather_S19x4_S8x128x1_S8x128x4_2_0_n_n_0_2_14 : GatherDims S19x4 S8x128x1 S8x128x4 where
  offsetDims := [2]
  collapsedSliceDims := [0]
  operandBatchingDims := []
  startIndicesBatchingDims := []
  startIndexMap := [0]
  indexVectorDim := 2
  sliceSizes := ![1, 4]
  wf := gather_S19x4_S8x128x1_S8x128x4_2_0_n_n_0_2_14_wf

class Facts : Prop extends Facts₀ where

variable [Facts]
-- ==== Proof.InvRT.lean ====
/-
  The function both programs compute, index by index, on the extended reals.

  With `z` of shape [8, 64, 512, 128] and four tables `e0 … e3` of shape [8, 128] (the four columns of the
  gathered parameter rows, one row per (mask row, lane) pair), the result at `(r, n, b, l)` is
  `-(e0 (r, l) + e1 (r, l) · tanh ((z (r, n, b, l) - e2 (r, l)) · e3 (r, l)))`.
  Neither side rearranges this expression, so no law of the extended reals beyond `0 - x = -x` is needed and
  the inputs' finiteness is never used.
-/
import Idealize.ShloMosaic.PureOps.Ideal
import Idealize.ShloMosaic.PureOps.Ideal.Laws
import Idealize.ShloMosaic.Lib.ValueIdx

noncomputable section

namespace Cert.InvRT

open Idealize.ShloMosaic

/-- The shape of `z` and of the result. -/
abbrev Sz : Shape := ⟨4, ![8, 64, 512, 128]⟩
/-- The shape of each parameter table: one entry per (mask row, lane). -/
abbrev Se : Shape := ⟨2, ![8, 128]⟩

/-- The (mask row, lane) pair an element `(r, n, b, l)` of `z` takes its parameters from: `(r, l)`. -/
abbrev rowLane (i : Sz.Idx) : Se.Idx := fun a => match a with
  | ⟨0, _⟩ => ⟨(i 0).val, (i 0).isLt⟩
  | ⟨1, _⟩ => ⟨(i 3).val, (i 3).isLt⟩

/-- The transform: `-(e0 + e1 · tanh ((z - e2) · e3))`, the tables read at the element's (mask row, lane). -/
def invrt (z : FVec Ideal Sz .f32) (e0 e1 e2 e3 : FVec Ideal Se .f32) : FVec Ideal Sz .f32 :=
  fun i => -(e0 (rowLane i) + e1 (rowLane i) * Ideal.tanh ((z i - e2 (rowLane i)) * e3 (rowLane i)))

/-- Subtracting from the zero word is negation: `0 - x = -x` on every extended real. -/
theorem zero_word_sub (x : Ideal .f32) :
    FloatOps.subf (Scalar.ofBits (F := Ideal) .f32 0x00000000#32) x = -x := by
  show Ideal.ofBits .f32 0x00000000#32 - (x : EReal) = -(x : EReal)
  rw [Ideal.ofBits_zero_f32, zero_sub]

end Cert.InvRT

end
-- ==== Proof.KernelColumns.lean ====
/-
  The idealized kernel's result array, read index by index, is the transform `Cert.InvRT.invrt` of `z` and of
  the four columns of the gathered parameter rows.

  Before the grid runs, the host gathers one parameter row per (mask row, lane), cuts it into its four columns
  [8, 128] and re-lays each as [8, 1, 1, 128]. Grid point `(r, g)` stages rows `8g … 8g + 7` of slab `r` of `z`
  (a block [1, 8, 512, 128]) and slab `r` of each column (a block [1, 1, 1, 128]); its body leaves in the output
  block, at `(0, n, b, l)`, the value `0 - (e0 l + e1 l · tanh ((z (0, n, b, l) - e2 l) · e3 l))`. The output
  blocks tile the array, so the array ends holding the transform everywhere.
-/
import proofs.«167754_j45406394253466_1_alg».proof.Proof.Gen.KernelIdeal.Value
import proofs.«167754_j45406394253466_1_alg».proof.Proof.InvRT
import Idealize.ShloMosaic.Lib.Pipeline.Value
import Idealize.ShloMosaic.Lib.StableHlo.Run

set_option maxRecDepth 16384

noncomputable section

namespace Cert.KernelIdeal.Transform

open Cert.KernelIdeal Cert.KernelIdeal.Gen Cert.KernelIdeal.Value Idealize.ShloMosaic Idealize.ShloMosaic.TcCoe Idealize.SL.Sem
open Idealize.ShloMosaic.Pipeline (Dat)
open Cert.InvRT (invrt rowLane)

/-! ## The gathered rows and their columns -/

section Columns

variable {F : FTy → Type} [FloatOps F]

/-- One parameter row per (mask row, lane): the table gathered at the mask's entries, a negative entry first moved
    up by the table's 19 rows. -/
def rows (tab : (⟨S19x4, .f32⟩ : BufTy).Contents (Elt F)) (mask : (⟨S8x128, .i32⟩ : BufTy).Contents (Elt F)) :
    (⟨S8x128x4, .f32⟩ : BufTy).Contents (Elt F) :=
  Host.gather gather_S19x4_S8x128x1_S8x128x4_2_0_n_n_0_2_14 tab
    (broadcastInDim S8x128x1 ![0, 1] bcast_S8x128_S8x128x1_0_1
      (select (cmpi .slt mask (broadcastInDim S8x128 ![] bcast_S_S8x128 (constantI S_ 32 0#32)))
        (addi mask (broadcastInDim S8x128 ![] bcast_S_S8x128 (constantI S_ 32 19#32))) mask))

/-- Column 0 of the gathered rows, as [8, 128]. -/
def col0 (tab : (⟨S19x4, .f32⟩ : BufTy).Contents (Elt F)) (mask : (⟨S8x128, .i32⟩ : BufTy).Contents (Elt F)) :
    (⟨S8x128, .f32⟩ : BufTy).Contents (Elt F) :=
  shapeCast _ (extractStridedSlice S8x128x1 ![0, 0, 0] (rows tab mask) slices_S8x128x4_S8x128x1_0_0_0) shapeCasts_S8x128x1_S8x128
/-- Column 1. -/
def col1 (tab : (⟨S19x4, .f32⟩ : BufTy).Contents (Elt F)) (mask : (⟨S8x128, .i32⟩ : BufTy).Contents (Elt F)) :
    (⟨S8x128, .f32⟩ : BufTy).Contents (Elt F) :=
  shapeCast _ (extractStridedSlice S8x128x1 ![0, 0, 1] (rows tab mask) slices_S8x128x4_S8x128x1_0_0_1) shapeCasts_S8x128x1_S8x128
/-- Column 2. -/
def col2 (tab : (⟨S19x4, .f32⟩ : BufTy).Contents (Elt F)) (mask : (⟨S8x128, .i32⟩ : BufTy).Contents (Elt F)) :
    (⟨S8x128, .f32⟩ : BufTy).Contents (Elt F) :=
  shapeCast _ (extractStridedSlice S8x128x1 ![0, 0, 2] (rows tab mask) slices_S8x128x4_S8x128x1_0_0_2) shapeCasts_S8x128x1_S8x128
/-- Column 3. -/
def col3 (tab : (⟨S19x4, .f32⟩ : BufTy).Contents (Elt F)) (mask : (⟨S8x128, .i32⟩ : BufTy).Contents (Elt F)) :
    (⟨S8x128, .f32⟩ : BufTy).Contents (Elt F) :=
  shapeCast _ (extractStridedSlice S8x128x1 ![0, 0, 3] (rows tab mask) slices_S8x128x4_S8x128x1_0_0_3) shapeCasts_S8x128x1_S8x128

/-- A column re-laid as [8, 1, 1, 128], read at `(r, 0, 0, l)`, is the column at `(r, l)`: the two indices have the
    same row-major position `128 r + l`. -/
theorem relaid_apply (e : (⟨S8x128, .f32⟩ : BufTy).Contents (Elt F)) (k : S8x1x1x128.Idx) (p : S8x128.Idx)
    (h0 : (p 0).val = (k 0).val) (h1 : (p 1).val = (k 3).val) :
    shapeCast S8x1x1x128 e shapeCasts_S8x128_S8x1x1x128 k = e p := by
  refine shapeCast_apply e shapeCasts_S8x128_S8x1x1x128 k p ?_
  rewrite [Shape.rowMajor_val_two, Shape.rowMajor_val_four]
  have k1 : (k 1).val < 1 := (k 1).isLt
  have k2 : (k 2).val < 1 := (k 2).isLt
  show (p 0).val * 128 + (p 1).val = (((k 0).val * 1 + (k 1).val) * 1 + (k 2).val) * 128 + (k 3).val
  rw [h0, h1]; omega

end Columns

/-! ## The arrays as the grid finds them -/

section Entry

variable {F : FTy → Type} [FloatOps F]
variable (m : (ℓ : Loc nD τ sig) → Buf (Elt F) ℓ)

/-- Window 1's array when the grid starts: column 0 re-laid. -/
theorem entry_e0 (c : Dev nD) : (V m c main_v9 : S8x1x1x128.Idx → Elt F .f32)
    = shapeCast S8x1x1x128 (col0 (m ((c : Thread nD τ).loc main_arg1)) (m ((c : Thread nD τ).loc main_arg2))) shapeCasts_S8x128_S8x1x1x128 := by
  dsimp only [V, hostOps0]; after_results; rfl
/-- Window 2's array: column 1 re-laid. -/
theorem entry_e1 (c : Dev nD) : (V m c main_v12 : S8x1x1x128.Idx → Elt F .f32)
    = shapeCast S8x1x1x128 (col1 (m ((c : Thread nD τ).loc main_arg1)) (m ((c : Thread nD τ).loc main_arg2))) shapeCasts_S8x128_S8x1x1x128 := by
  dsimp only [V, hostOps0]; after_results; rfl
/-- Window 3's array: column 2 re-laid. -/
theorem entry_e2 (c : Dev nD) : (V m c main_v15 : S8x1x1x128.Idx → Elt F .f32)
    = shapeCast S8x1x1x128 (col2 (m ((c : Thread nD τ).loc main_arg1)) (m ((c : Thread nD τ).loc main_arg2))) shapeCasts_S8x128_S8x1x1x128 := by
  dsimp only [V, hostOps0]; after_results; rfl
/-- Window 4's array: column 3 re-laid. -/
theorem entry_e3 (c : Dev nD) : (V m c main_v18 : S8x1x1x128.Idx → Elt F .f32)
    = shapeCast S8x1x1x128 (col3 (m ((c : Thread nD τ).loc main_arg1)) (m ((c : Thread nD τ).loc main_arg2))) shapeCasts_S8x128_S8x1x1x128 := by
  dsimp only [V, hostOps0]; after_results; rfl

end Entry

end Cert.KernelIdeal.Transform

end
-- ==== Proof.KernelTransform.lean ====
/-
  From the blocks to the array: every grid point writes back its block of the transform, and the blocks tile the
  result array, so the idealized kernel's run ends with the result array at the transform of `z` and the four
  gathered columns.
-/
import proofs.«167754_j45406394253466_1_alg».proof.Proof.KernelColumns

set_option maxRecDepth 16384

noncomputable section

namespace Cert.KernelIdeal.Transform

open Cert.KernelIdeal Cert.KernelIdeal.Gen Cert.KernelIdeal.Value Idealize.ShloMosaic Idealize.ShloMosaic.TcCoe Idealize.SL.Sem
open Idealize.ShloMosaic.Pipeline (Dat)
open Cert.InvRT (invrt rowLane)

theorem offsets_zero : (![0, 0, 0, 0] : Fin 4 → Nat) = fun _ => 0 := funext fun a => by fin_cases a <;> rfl

/-! ## One point's block -/

/-- What the body leaves in the output block is, index by index, the generated pointwise form of its five loaded
    blocks: every load is through the whole block. -/
theorem block_eq {F : FTy → Type} [FloatOps F] (x0 : Vec F S1x8x512x128 .f32) (x1 x2 x3 x4 : Vec F S1x1x1x128 .f32)
    (y : S1x8x512x128.Idx) : out0_5 x0 x1 x2 x3 x4 y = E5 x1 x2 x0 x3 x4 y := by
  unfold out0_5
  simp only [View.ld_unit_zero (S := S1x8x512x128) offsets_zero, View.ld_unit_zero (S := S1x1x1x128) offsets_zero]
  exact canon5_eq x1 x2 x0 x3 x4 y

/-- The pointwise form at block index `y` is the transform at array index `i`, once each loaded block's entry under
    `y` is the corresponding array's entry under `i`; the kernel's `0 - x` is the transform's negation. -/
theorem point_eq (Z : FVec Ideal S8x64x512x128 .f32) (e0 e1 e2 e3 : FVec Ideal S8x128 .f32)
    (P0 P1 : Vec Ideal S1x1x1x128 .f32) (P2 : Vec Ideal S1x8x512x128 .f32) (P3 P4 : Vec Ideal S1x1x1x128 .f32)
    (y : S1x8x512x128.Idx) (i : S8x64x512x128.Idx)
    (h0 : P0 (ix5_0 y) = e0 (rowLane i)) (h1 : P1 (ix5_1 y) = e1 (rowLane i)) (h2 : P2 (ix5_2 y) = Z i)
    (h3 : P3 (ix5_3 y) = e2 (rowLane i)) (h4 : P4 (ix5_4 y) = e3 (rowLane i)) :
    E5 P0 P1 P2 P3 P4 y = invrt Z e0 e1 e2 e3 i := by
  show FloatOps.subf (F := Ideal) (Scalar.ofBits (F := Ideal) .f32 0x00000000#32)
    (FloatOps.addf (F := Ideal) (P0 (ix5_0 y)) (FloatOps.mulf (F := Ideal) (P1 (ix5_1 y))
      (FloatOps.tanh (F := Ideal) (FloatOps.mulf (F := Ideal) (FloatOps.subf (F := Ideal) (P2 (ix5_2 y)) (P3 (ix5_3 y)))
        (P4 (ix5_4 y)))))) = _
  rw [h0, h1, h2, h3, h4, Cert.InvRT.zero_word_sub]
  rfl

/-! ## The index maps over the grid -/

/-- Decided over the 64 grid points: the `z` window moves with the output window; each column window follows the
    output's slab and stays at block 0 on the other axes; the output's block indices stay inside 8 × 8 × 1 × 1. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = 0 ∧ win0_0.index t (3 : Fin 4) = 0)
    ∧ (win0_1.index t (0 : Fin 4) = win0_5.index t (0 : Fin 4) ∧ win0_1.index t (1 : Fin 4) = 0
      ∧ win0_1.index t (2 : Fin 4) = 0 ∧ win0_1.index t (3 : Fin 4) = 0)
    ∧ (win0_2.index t (0 : Fin 4) = win0_5.index t (0 : Fin 4) ∧ win0_2.index t (1 : Fin 4) = 0
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = 0 ∧ win0_3.index t (3 : Fin 4) = 0)
    ∧ (win0_4.index t (0 : Fin 4) = win0_5.index t (0 : Fin 4) ∧ win0_4.index t (1 : Fin 4) = 0
      ∧ win0_4.index t (2 : Fin 4) = 0 ∧ win0_4.index t (3 : Fin 4) = 0)
    ∧ (win0_5.index t (0 : Fin 4) ≤ 7 ∧ win0_5.index t (1 : Fin 4) ≤ 7
      ∧ win0_5.index t (2 : Fin 4) = 0 ∧ win0_5.index t (3 : Fin 4) = 0) :=
  (by decide +kernel : ∀ t : Fin grid0.N, _)

/-- Every (slab, row group) pair is some grid point's output block. -/
theorem idx_onto : ∀ (q0 : Fin 8) (q1 : Fin 8), ∃ t : Fin cfg0.N, win0_5.index t = ![q0.val, q1.val, 0, 0] :=
  (by decide +kernel : ∀ (q0 : Fin 8) (q1 : Fin 8), ∃ t : Fin grid0.N, win0_5.index t = ![q0.val, q1.val, 0, 0])

/-! ## What a point writes back -/

section Run

variable (m : (ℓ : Loc nD τ sig) → Buf (Elt Ideal) ℓ) (ρ : Dev nD → PrngReg)

/-- The result: the transform of `z` and of the four columns gathered from the table at the mask. -/
abbrev result (c : Dev nD) : FVec Ideal S8x64x512x128 .f32 :=
  invrt (m ((c : Thread nD τ).loc main_arg0))
    (col0 (m ((c : Thread nD τ).loc main_arg1)) (m ((c : Thread nD τ).loc main_arg2)))
    (col1 (m ((c : Thread nD τ).loc main_arg1)) (m ((c : Thread nD τ).loc main_arg2)))
    (col2 (m ((c : Thread nD τ).loc main_arg1)) (m ((c : Thread nD τ).loc main_arg2)))
    (col3 (m ((c : Thread nD τ).loc main_arg1)) (m ((c : Thread nD τ).loc main_arg2)))

/-- Point `t` writes back block `t` of the result. Under block index `j = (0, n, b, l)` of the output block at
    `(r, g)` lies array index `(r, 8g + n, b, l)`; the `z` block's entry at `j` is `z` there, and each column block's
    entry at `(0, 0, 0, l)` is the re-laid column at `(r, 0, 0, l)`, the column at `(r, l)`. -/
theorem flushed_eq (c : Dev nD) (t : Fin cfg0.N) :
    (dats m 0 c).flushed 5 t = ((cfg0.win 5).blk t).view.read (Elt Ideal) (result m c) := by
  rw [flushed5]
  obtain ⟨⟨z0, z1, z2, z3⟩, ⟨a0, a1, a2, a3⟩, ⟨b0, b1, b2, b3⟩, ⟨c0, c1, c2, c3⟩, ⟨d0, d1, d2, d3⟩, ⟨o0, o1, o2, o3⟩⟩ := idx_facts t
  funext j
  have j0 : (j 0).val < 1 := (j 0).isLt
  have j1 : (j 1).val < 8 := (j 1).isLt
  have j2 : (j 2).val < 512 := (j 2).isLt
  have j3 : (j 3).val < 128 := (j 3).isLt
  show out0_5 (iblk m c 0 t) (iblk m c 1 t) (iblk m c 2 t) (iblk m c 3 t) (iblk m c 4 t) j
    = result m c (((cfg0.win 5).blk t).view.emb j)
  refine (block_eq (iblk m c 0 t) (iblk m c 1 t) (iblk m c 2 t) (iblk m c 3 t) (iblk m c 4 t) j).trans ?_
  refine point_eq _ _ _ _ _ (iblk m c 1 t) (iblk m c 2 t) (iblk m c 0 t) (iblk m c 3 t) (iblk m c 4 t) j
    (((cfg0.win 5).blk t).view.emb j) ?_ ?_ ?_ ?_ ?_
  · show V m c main_v9 (((cfg0.win 1).blk t).view.emb (ix5_0 j)) = _
    rw [entry_e0]
    refine relaid_apply _ _ _ ?_ ?_
    · show win0_5.index t (0 : Fin 4) * 1 + 1 * (j 0).val = win0_1.index t (0 : Fin 4) * 1 + 1 * 0
      omega
    · show win0_5.index t (3 : Fin 4) * 128 + 1 * (j 3).val = win0_1.index t (3 : Fin 4) * 128 + 1 * (j 3).val
      omega
  · show V m c main_v12 (((cfg0.win 2).blk t).view.emb (ix5_1 j)) = _
    rw [entry_e1]
    refine relaid_apply _ _ _ ?_ ?_
    · show win0_5.index t (0 : Fin 4) * 1 + 1 * (j 0).val = win0_2.index t (0 : Fin 4) * 1 + 1 * 0
      omega
    · show win0_5.index t (3 : Fin 4) * 128 + 1 * (j 3).val = win0_2.index t (3 : Fin 4) * 128 + 1 * (j 3).val
      omega
  · show V m c main_arg0 (((cfg0.win 0).blk t).view.emb (ix5_2 j)) = m ((c : Thread nD τ).loc main_arg0) (((cfg0.win 5).blk t).view.emb j)
    refine (congrFun (V_main_arg0 m c) _).trans ?_
    refine congrArg _ (funext fun a => Fin.ext ?_)
    match a with
    | ⟨0, _⟩ => show win0_0.index t (0 : Fin 4) * 1 + 1 * 0 = win0_5.index t (0 : Fin 4) * 1 + 1 * (j 0).val; omega
    | ⟨1, _⟩ => show win0_0.index t (1 : Fin 4) * 8 + 1 * (j 1).val = win0_5.index t (1 : Fin 4) * 8 + 1 * (j 1).val; omega
    | ⟨2, _⟩ => show win0_0.index t (2 : Fin 4) * 512 + 1 * (j 2).val = win0_5.index t (2 : Fin 4) * 512 + 1 * (j 2).val; omega
    | ⟨3, _⟩ => show win0_0.index t (3 : Fin 4) * 128 + 1 * (j 3).val = win0_5.index t (3 : Fin 4) * 128 + 1 * (j 3).val; omega
  · show V m c main_v15 (((cfg0.win 3).blk t).view.emb (ix5_3 j)) = _
    rw [entry_e2]
    refine relaid_apply _ _ _ ?_ ?_
    · show win0_5.index t (0 : Fin 4) * 1 + 1 * (j 0).val = win0_3.index t (0 : Fin 4) * 1 + 1 * 0
      omega
    · show win0_5.index t (3 : Fin 4) * 128 + 1 * (j 3).val = win0_3.index t (3 : Fin 4) * 128 + 1 * (j 3).val
      omega
  · show V m c main_v18 (((cfg0.win 4).blk t).view.emb (ix5_4 j)) = _
    rw [entry_e3]
    refine relaid_apply _ _ _ ?_ ?_
    · show win0_5.index t (0 : Fin 4) * 1 + 1 * (j 0).val = win0_4.index t (0 : Fin 4) * 1 + 1 * 0
      omega
    · show win0_5.index t (3 : Fin 4) * 128 + 1 * (j 3).val = win0_4.index t (3 : Fin 4) * 128 + 1 * (j 3).val
      omega

/-! ## The blocks tile the array -/

/-- An index of the array is in point `t`'s output block iff each coordinate is in the block's range on its axis. -/
theorem mem_blk (t : Fin cfg0.N) (i : S8x64x512x128.Idx) :
    i ∈ ((cfg0.win 5).blk t).view.set ↔ ∀ a : Fin 4, win0_5.index t a * S1x8x512x128.size a ≤ (i a).val
      ∧ (i a).val < win0_5.index t a * S1x8x512x128.size a + S1x8x512x128.size a := by
  show i ∈ ((View.whole main_v19).slice (win0_5.rect t)).set ↔ _
  rw [View.set_slice_whole, Rect.mem_set_unit]
  exact Iff.rfl

/-- Index `(r, n, b, l)` lies in the output block of the point at slab `r`, row group `n / 8`. -/
theorem cover (i : S8x64x512x128.Idx) :
    ∃ t : Fin cfg0.N, (cfg0.win 5).flush t = true ∧ i ∈ ((cfg0.win 5).blk t).view.set := by
  have i0 : (i 0).val < 8 := (i 0).isLt
  have i1 : (i 1).val < 64 := (i 1).isLt
  have i2 : (i 2).val < 512 := (i 2).isLt
  have i3 : (i 3).val < 128 := (i 3).isLt
  obtain ⟨t, ht⟩ := idx_onto ⟨(i 0).val, i0⟩ ⟨(i 1).val / 8, by omega⟩
  have q0 : win0_5.index t (0 : Fin 4) = (i 0).val := congrFun ht 0
  have q1 : win0_5.index t (1 : Fin 4) = (i 1).val / 8 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 8 ≤ (i 1).val ∧ (i 1).val < win0_5.index t (1 : Fin 4) * 8 + 8; omega
  | ⟨2, _⟩ => show win0_5.index t (2 : Fin 4) * 512 ≤ (i 2).val ∧ (i 2).val < win0_5.index t (2 : Fin 4) * 512 + 512; omega
  | ⟨3, _⟩ => show win0_5.index t (3 : Fin 4) * 128 ≤ (i 3).val ∧ (i 3).val < win0_5.index t (3 : Fin 4) * 128 + 128; omega

/-- So the result array ends holding the transform. -/
theorem final (c : Dev nD) : (dats m 0 c).arrAt 5 cfg0.N = result m c :=
  (dats m 0 c).arrAt_eq_of_cover 5 (result m c) (fun t _ => flushed_eq m c t) cover

/-- The idealized kernel's run, read: the result array at the transform, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Run

end Cert.KernelIdeal.Transform

end
-- ==== Proof.RefTransform.lean ====
/-
  The reference's result, read index by index, is the transform `Cert.InvRT.invrt` of `z` and of the four
  columns of the gathered parameter rows.

  The reference broadcasts each column [8, 128] first to [8, 1, 1, 128] (axes 0 and 3) and then to the shape of
  `z`: an element `(r, n, b, l)` therefore reads the column at `(r, l)`. The arithmetic is then the transform's
  own, the host's `negate` and `tanh` being negation and `tanh` on the extended reals.
-/
import proofs.«167754_j45406394253466_1_alg».proof.Proof.Gen.ReferenceIdeal.Read
import proofs.«167754_j45406394253466_1_alg».proof.Proof.InvRT

noncomputable section

namespace Cert.ReferenceIdeal.RefValue

open Cert.ReferenceIdeal Cert.ReferenceIdeal.Gen Cert.ReferenceIdeal.Read Idealize.ShloMosaic

/-- Through the two broadcasts, element `(r, n, b, l)` reads column 0 at `(r, l)`. -/
theorem col0_at (i : S8x64x512x128.Idx) : idx_main_v9 (idx_main_v26 i) = Cert.InvRT.rowLane i :=
  funext fun a => Fin.ext (by match a with | ⟨0, _⟩ => rfl | ⟨1, _⟩ => rfl)
/-- Likewise column 1. -/
theorem col1_at (i : S8x64x512x128.Idx) : idx_main_v12 (idx_main_v24 i) = Cert.InvRT.rowLane i :=
  funext fun a => Fin.ext (by match a with | ⟨0, _⟩ => rfl | ⟨1, _⟩ => rfl)
/-- Likewise column 2. -/
theorem col2_at (i : S8x64x512x128.Idx) : idx_main_v15 (idx_main_v19 i) = Cert.InvRT.rowLane i :=
  funext fun a => Fin.ext (by match a with | ⟨0, _⟩ => rfl | ⟨1, _⟩ => rfl)
/-- Likewise column 3. -/
theorem col3_at (i : S8x64x512x128.Idx) : idx_main_v18 (idx_main_v21 i) = Cert.InvRT.rowLane i :=
  funext fun a => Fin.ext (by match a with | ⟨0, _⟩ => rfl | ⟨1, _⟩ => rfl)

/-- The reference's last stage is the transform of `z` and the four gathered columns. -/
theorem result_eq (z : FVec Ideal S8x64x512x128 .f32) (tab : FVec Ideal S19x4 .f32) (mask : IVec S8x128 32) :
    val_main_v28 (F := Ideal) z tab mask
      = Cert.InvRT.invrt z (val_main_v8 (F := Ideal) tab mask) (val_main_v11 (F := Ideal) tab mask)
          (val_main_v14 (F := Ideal) tab mask) (val_main_v17 (F := Ideal) tab mask) := by
  funext i
  rw [val_main_v28_apply, val_main_v27_apply, val_main_v26_apply, val_main_v9_apply, val_main_v25_apply,
    val_main_v24_apply, val_main_v12_apply, val_main_v23_apply, val_main_v22_apply, val_main_v20_apply,
    val_main_v19_apply, val_main_v15_apply, val_main_v21_apply, val_main_v18_apply,
    col0_at, col1_at, col2_at, col3_at]
  rfl

end Cert.ReferenceIdeal.RefValue

end
-- ==== Proof.lean ====
/-
  The certificate of the per-lane parameterized tanh transform `-(e0 + e1 · tanh ((z - e2) · e3))` over
  `z : f32[8, 64, 512, 128]`, the four parameters of an element `(r, n, b, l)` being the columns of the table row
  gathered at the mask's entry `(r, l)`.

  Both programs gather the same rows with the same host operations and cut them into the same four columns
  [8, 128]. The kernel re-lays each column as [8, 1, 1, 128] and lets the grid broadcast it inside each block; the
  reference broadcasts each column to the shape of `z`. Index by index both evaluate one and the same expression
  of extended reals (`Cert.InvRT.invrt`): the kernel writes `0 - x` where the reference negates, which is the same
  on every extended real, and `tanh` is one function on both sides. No step rearranges the arithmetic, so the
  precondition (finite inputs) is never opened.

  The three frames are the generated ones (the reference's is its generated run with the result dropped); the
  ideal pass rewrote nothing, so `preserves` is trivial; `algebraic` sets the kernel's run (the blocks of the
  transform tiling the result array) beside the reference's run read at an index.
-/
import proofs.«167754_j45406394253466_1_alg».proof.Defs
import proofs.«167754_j45406394253466_1_alg».proof.Proof.Gen.Kernel
import proofs.«167754_j45406394253466_1_alg».proof.Proof.Gen.Kernel.Skeleton
import proofs.«167754_j45406394253466_1_alg».proof.Proof.Gen.Kernel.Launch
import proofs.«167754_j45406394253466_1_alg».proof.Proof.Gen.Kernel.Points
import proofs.«167754_j45406394253466_1_alg».proof.Proof.Gen.Kernel.Frame
import proofs.«167754_j45406394253466_1_alg».proof.Proof.Gen.KernelIdeal
import proofs.«167754_j45406394253466_1_alg».proof.Proof.Gen.KernelIdeal.Skeleton
import proofs.«167754_j45406394253466_1_alg».proof.Proof.Gen.KernelIdeal.Launch
import proofs.«167754_j45406394253466_1_alg».proof.Proof.Gen.KernelIdeal.Points
import proofs.«167754_j45406394253466_1_alg».proof.Proof.Gen.KernelIdeal.Frame
import proofs.«167754_j45406394253466_1_alg».proof.Proof.Gen.ReferenceIdeal
import proofs.«167754_j45406394253466_1_alg».proof.Proof.Gen.Pre_finite_inputs
import proofs.«167754_j45406394253466_1_alg».proof.Proof.Gen.KernelIdeal.Value
import proofs.«167754_j45406394253466_1_alg».proof.Proof.Gen.ReferenceIdeal.Run
import proofs.«167754_j45406394253466_1_alg».proof.Proof.Gen.ReferenceIdeal.Read
import proofs.«167754_j45406394253466_1_alg».proof.Proof.KernelTransform
import proofs.«167754_j45406394253466_1_alg».proof.Proof.RefTransform
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, the idealized kernel's result array ends at the transform of `z` and
    the gathered columns, and the reference's at its last stage, which is the same transform of the same columns:
    the two programs' gathers and column cuts are one term. -/
theorem algebraic : Cert.algebraic_KernelIdeal_ReferenceIdeal := by
  intro m ρ m' ρ' _ hagree
  refine ⟨fun c => Cert.KernelIdeal.Transform.result m c, Cert.KernelIdeal.Transform.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
